-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S1000x256 : Shape := ⟨2, ![1000, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x256 .f32) (main_arg1 : FVec F S1000x256 .f32) (main_arg2 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg2 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_c_4 : IVec S_ 32 := constantI S_ 32 1000#32
  let main_v13 : IVec S262144 32 := broadcastInDim S262144 ![] bcast_S_S262144 main_c_4
  let main_v14 : IVec S262144 1 := cmpi .slt main_arg2 main_v13
  let main_c_5 : IVec S_ 1 := constantI S_ 1 1#1
  let main_v15 : IVec S_ 1 := (fun x v => Host.reduce IntOp.andi x v reducesTo_S262144_S_d0 h_S_) main_v14 main_c_5
  fn_part1 (F := F) main_v12 main_v15
-- ==== Kernel.lean ====
abbrev S262144x256 : Shape := ⟨2, ![262144, 256]⟩
abbrev S1000x256 : Shape := ⟨2, ![1000, 256]⟩
abbrev S262144 : Shape := ⟨1, ![262144]⟩
abbrev S262144x1 : Shape := ⟨2, ![262144, 1]⟩
abbrev S2x1x1 : Shape := ⟨3, ![2, 1, 1]⟩
abbrev S4096x256 : Shape := ⟨2, ![4096, 256]⟩
abbrev S4096x1 : Shape := ⟨2, ![4096, 1]⟩
abbrev S1x1x1 : Shape := ⟨3, ![1, 1, 1]⟩
abbrev S1x1 : Shape := ⟨2, ![1, 1]⟩
abbrev S1x1000 : Shape := ⟨2, ![1, 1000]⟩
abbrev S4096x1000 : Shape := ⟨2, ![4096, 1000]⟩
abbrev S4096 : Shape := ⟨1, ![4096]⟩
abbrev S1 : Shape := ⟨1, ![1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S1000x256, .f32⟩
  | .hbm, ⟨2, _⟩ => ⟨S262144, .i32⟩
  | .hbm, ⟨3, _⟩ => ⟨S262144x1, .i32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x1, .i32⟩
  | .local _ .vmem, ⟨3, _⟩ => ⟨S4096x1, .i32⟩
  | .local _ .vmem, ⟨4, _⟩ => ⟨S1000x256, .f32⟩
  | .local _ .vmem, ⟨5, _⟩ => ⟨S1x1x1, .f32⟩
  | .local _ .vmem, ⟨6, _⟩ => ⟨S1x1x1, .f32⟩
  | .local _ .vmem, ⟨7, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S262144x1 : S262144.ShapeCasts S262144x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x1000_d1_w32 : S1x1000.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1000 : S4096x1.Broadcasts S4096x1000
  broadcasts_S1x1000_S4096x1000 : S1x1000.Broadcasts S4096x1000
  natLt_1_32 : 1 < 32
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  dot_S4096x1000_S1000x256_S4096x256_1_0_0_1_n_n_wf : DotDims.WF S4096x1000 S1000x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .i32 = 32 ∨ (Rect.block (s := S262144x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S1000x256.size a
  hwx0_2 : ∀ i : grid0.Coords, EltTy.bits .f32 = 32 ∨ (Rect.block (s := S1000x256) S1000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S4096x1000_S1000x256_S4096x256_1_0_0_1_n_n : DotDims S4096x1000 S1000x256 S4096x256 where
  lhsContracting := [1]
  rhsContracting := [0]
  lhsNonContracting := [0]
  rhsNonContracting := [1]
  lhsBatch := []
  rhsBatch := []
  wf := dot_S4096x1000_S1000x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x256 : Shape := ⟨2, ![262144, 256]⟩
abbrev S1000x256 : Shape := ⟨2, ![1000, 256]⟩
abbrev S262144 : Shape := ⟨1, ![262144]⟩
abbrev S_ : Shape := ⟨0, ![]⟩
abbrev S262144x1 : Shape := ⟨2, ![262144, 1]⟩

abbrev nBuf : Space → Nat
  | .hbm => 27
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S1000x256, .f32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S_, .f32⟩
  | .hbm, ⟨18, _⟩ => ⟨S262144, .f32⟩
  | .hbm, ⟨19, _⟩ => ⟨S262144, .f32⟩
  | .hbm, ⟨20, _⟩ => ⟨S_, .f32⟩
  | .hbm, ⟨21, _⟩ => ⟨S262144, .f32⟩
  | .hbm, ⟨22, _⟩ => ⟨S262144, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  reducesTo_S262144_S_d0 : S262144.ReducesTo [0] S_
  gather_S1000x256_S262144x1_S262144x256_1_0_n_n_0_1_1256_wf : GatherDims.WF S1000x256 S262144x1 S262144x256 [1] [0] [] [0] [] 1 ![1, 256]

variable [Facts₀]

def gather_S1000x256_S262144x1_S262144x256_1_0_n_n_0_1_1256 : GatherDims S1000x256 S262144x1 S262144x256 where
  offsetDims := [1]
  collapsedSliceDims := [0]
  operandBatchingDims := []
  startIndicesBatchingDims := []
  startIndexMap := [0]
  indexVectorDim := 1
  sliceSizes := ![1, 256]
  wf := gather_S1000x256_S262144x1_S262144x256_1_0_n_n_0_1_1256_wf

class Facts : Prop extends Facts₀ where

variable [Facts]
-- ==== Proof.Pieces.lean ====
/-
  What one run of the kernel body leaves behind, as values.

  The body keeps a 1 × 1 accumulator between grid points. At a lane's first point it stores zero into it; at every
  point it then loads the labels' block `x1`, the class-mean table `x2`, the features' block `x0` and the
  accumulator, and stores back "accumulator + this block's losses" (the payload `k0_pay2`); at a lane's last point
  it also stores "accumulator / 262144" (the payload `k0_pay3`) into the output block.

  So, whatever the staging memrefs are:
    * a first point leaves the accumulator at `k0_pay2 x1 x2 x0 zero`, `zero` the stored zero block read back;
    * a middle point that found `acc` leaves `k0_pay2 x1 x2 x0 acc`;
    * a last point that found `acc` leaves the same in the accumulator, and `k0_pay3` of it in the output block.
  Each is the canonical form of the run's stores: one store through the whole buffer leaves its payload, a later
  whole store hides an earlier one, and a load after a whole store reads that store's payload.
-/
import proofs.«408591_j29918742184188_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A lane's first point: the accumulator is reset and then holds the first block's losses added to the zero
    just stored. -/
theorem acc_first (c : Dev nD) (i : grid0.Coords) (a2 : Memref sig .tc .vmem S4096x256 .f32) (h2 : a2.IsWhole) (a3 : Memref sig .tc .vmem S4096x1 .i32) (h3 : a3.IsWhole) (a4 : Memref sig .tc .vmem S1000x256 .f32) (h4 : a4.IsWhole) (a5 : Memref sig .tc .vmem S1x1x1 .f32) (h5 : a5.IsWhole) (a6 : Memref sig .tc .vmem S1x1 .f32) (h6 : a6.IsWhole) (hc0 : cond0_0 i) (hc1 : ¬cond0_1 i)
    (x0 : Vec F S4096x256 .f32) (x1 : Vec F S4096x1 .i32) (x2 : Vec F S1000x256 .f32) :
    sout0_A_0 c i a2 h2 a3 h3 a4 h4 a5 h5 a6 h6 hc0 hc1 x0 x1 x2 = k0_pay2 x1 x2 x0 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz2]
  simp only [View.readAt_eq_ld, h2.read_unread, h3.read_unread, h4.read_unread, View.ld_unit_zero (S := S4096x256) hz2,
    View.ld_unit_zero (S := S4096x1) hz2, View.ld_unit_zero (S := S1000x256) hz2, View.readCov_unit_zero (S := S1x1) _ hz2]

/-- A middle point: the accumulator it found, plus this block's losses. -/
theorem acc_middle (c : Dev nD) (i : grid0.Coords) (a2 : Memref sig .tc .vmem S4096x256 .f32) (h2 : a2.IsWhole) (a3 : Memref sig .tc .vmem S4096x1 .i32) (h3 : a3.IsWhole) (a4 : Memref sig .tc .vmem S1000x256 .f32) (h4 : a4.IsWhole) (a5 : Memref sig .tc .vmem S1x1x1 .f32) (h5 : a5.IsWhole) (a6 : Memref sig .tc .vmem S1x1 .f32) (h6 : a6.IsWhole) (hc0 : ¬cond0_0 i) (hc1 : ¬cond0_1 i)
    (x0 : Vec F S4096x256 .f32) (x1 : Vec F S4096x1 .i32) (x2 : Vec F S1000x256 .f32) (xs0 : Vec F S1x1 .f32) :
    sout0_B_0 c i a2 h2 a3 h3 a4 h4 a5 h5 a6 h6 hc0 hc1 x0 x1 x2 xs0 = k0_pay2 x1 x2 x0 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero (S := S1x1) hz2]
  simp only [View.readAt_eq_ld, h2.read_unread, h3.read_unread, h4.read_unread, h6.read_unread, View.ld_unit_zero (S := S4096x256) hz2,
    View.ld_unit_zero (S := S4096x1) hz2, View.ld_unit_zero (S := S1000x256) hz2, View.ld_unit_zero (S := S1x1) hz2]

/-- A lane's last point leaves the same in the accumulator … -/
theorem acc_last (c : Dev nD) (i : grid0.Coords) (a2 : Memref sig .tc .vmem S4096x256 .f32) (h2 : a2.IsWhole) (a3 : Memref sig .tc .vmem S4096x1 .i32) (h3 : a3.IsWhole) (a4 : Memref sig .tc .vmem S1000x256 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S4096x256 .f32) (x1 : Vec F S4096x1 .i32) (x2 : Vec F S1000x256 .f32) (xs0 : Vec F S1x1 .f32) :
    sout0_C_0 c i a2 h2 a3 h3 a4 h4 a5 h5 a6 h6 hc0 hc1 x0 x1 x2 xs0 = k0_pay2 x1 x2 x0 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero (S := S1x1) hz2]
  simp only [View.readAt_eq_ld, h2.read_unread, h3.read_unread, h4.read_unread, h6.read_unread, View.ld_unit_zero (S := S4096x256) hz2,
    View.ld_unit_zero (S := S4096x1) hz2, View.ld_unit_zero (S := S1000x256) hz2, View.ld_unit_zero (S := S1x1) hz2]

/-- … and in the output block that accumulator divided by the sample count. -/
theorem out_last (c : Dev nD) (i : grid0.Coords) (a2 : Memref sig .tc .vmem S4096x256 .f32) (h2 : a2.IsWhole) (a3 : Memref sig .tc .vmem S4096x1 .i32) (h3 : a3.IsWhole) (a4 : Memref sig .tc .vmem S1000x256 .f32) (h4 : a4.IsWhole) (a5 : Memref sig .tc .vmem S1x1x1 .f32) (h5 : a5.IsWhole) (a6 : Memref sig .tc .vmem S1x1 .f32) (h6 : a6.IsWhole) (hc0 : ¬cond0_0 i) (hc1 : cond0_1 i)
    (x0 : Vec F S4096x256 .f32) (x1 : Vec F S4096x1 .i32) (x2 : Vec F S1000x256 .f32) (xs0 : Vec F S1x1 .f32) :
    out0_C_3 c i a2 h2 a3 h3 a4 h4 a5 h5 a6 h6 hc0 hc1 x0 x1 x2 xs0 = k0_pay3 (k0_pay2 x1 x2 x0 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S1x1x1) hz3]
  simp only [View.readAt_eq_ld, h2.read_unread, h3.read_unread, h4.read_unread, h6.read_unread, View.ld_unit_zero (S := S4096x256) hz2,
    View.ld_unit_zero (S := S4096x1) hz2, View.ld_unit_zero (S := S1000x256) hz2, View.ld_unit_zero (S := S1x1) hz2,
    View.readCov_unit_zero (S := S1x1) _ hz2]

end Cert.KernelIdeal.Pieces

end
-- ==== Proof.Hinge.lean ====
/-
  The mathematics both programs compute, over the extended reals.

  A sample has a row of 256 features and, through its label, a row of 256 class means. Its loss is the hinge
  `max (5 − ‖f − μ‖₂) 0`, the norm being the square root of the sum of the squared differences. The result is the
  mean of the 262144 losses.

  One program adds all the losses and divides the total by 262144. The other cuts the samples into 2 lanes of 32
  blocks of 4096 rows, adds a lane's blocks one after the other starting from zero, divides each lane's total by
  262144, and adds the two quotients. They agree because
    * a sum over the 262144 samples is the sum over lanes, blocks and rows of the re-indexed terms
      (`total_eq_blocks`), and
    * dividing by 262144 is multiplying by the non-negative real 1/262144, and a non-negative finite factor
      distributes over a sum of extended reals whatever the summands are (`mean_of_lanes`).

  A class-mean row is picked out of the table either directly or as a one-hot row times the table,
  `∑ c, [c = l] · μ c`; that sum is `μ l` on the extended reals with no finiteness needed, because `0 · x = 0` and
  `1 · x = x` for every extended real `x` (`pick_row`).
-/
import Idealize.ShloMosaic.PureOps.Ideal
import Idealize.ShloMosaic.PureOps.Ideal.Laws
import Mathlib.Algebra.BigOperators.Intervals
import Mathlib.Algebra.BigOperators.Fin
import Mathlib.Data.EReal.Operations

noncomputable section

namespace Cert.Hinge

open Idealize.ShloMosaic Finset

/-- A one-hot row times a table column is the column's entry at the hot position. -/
theorem pick_row {n : Nat} (l : Fin n) (g : Fin n → EReal) :
    ∑ c : Fin n, (if c = l then (1 : EReal) else 0) * g c = g l := by
  simp only [ite_mul, one_mul, zero_mul, Finset.sum_ite_eq', Finset.mem_univ, if_true]

/-- The hinge loss of one sample: `max (5 − √(∑ d, (f d − μ d)²)) 0`, the two literals kept as the words the programs
    spell. -/
def rowLoss (f μ : Fin 256 → EReal) : EReal :=
  max (Ideal.ofBits .f32 0x40A00000#32 - Ideal.sqrt (∑ d : Fin 256, (f d - μ d) * (f d - μ d)))
    (Ideal.ofBits .f32 0x00000000#32)

/-- A family over the 262144 samples as a family over the naturals, zero past the end. -/
def ext (L : Fin 262144 → EReal) (n : ℕ) : EReal := if h : n < 262144 then L ⟨n, h⟩ else 0

theorem ext_of_lt (L : Fin 262144 → EReal) {n : ℕ} (h : n < 262144) : ext L n = L ⟨n, h⟩ := dif_pos h

/-- The sum of block `s`: rows `4096 s` … `4096 s + 4095`. -/
def blockSum (L : Fin 262144 → EReal) (s : ℕ) : EReal := ∑ q ∈ range 4096, ext L (4096 * s + q)

/-- A sum over `a · b` consecutive naturals, cut into `a` stretches of `b`. -/
theorem sum_range_mul (f : ℕ → EReal) (b : ℕ) :
    ∀ a : ℕ, ∑ n ∈ range (a * b), f n = ∑ s ∈ range a, ∑ q ∈ range b, f (b * s + q)
  | 0 => by simp
  | a + 1 => by
    rw [Nat.succ_mul, Finset.sum_range_add, sum_range_mul f b a, Finset.sum_range_succ, Nat.mul_comm a b]

/-- The total over all samples is lane 0's 32 block sums plus lane 1's. -/
theorem total_eq_blocks (L : Fin 262144 → EReal) :
    ∑ r : Fin 262144, L r = ∑ s ∈ range 32, blockSum L s + ∑ s ∈ range 32, blockSum L (32 + s) := by
  have h1 : ∑ r : Fin 262144, L r = ∑ n ∈ range 262144, ext L n := by
    rw [← Fin.sum_univ_eq_sum_range]
    exact Finset.sum_congr rfl fun r _ => (ext_of_lt L r.isLt).symm
  rw [h1, show (262144 : ℕ) = (32 + 32) * 4096 from rfl, sum_range_mul, Finset.sum_range_add]
  rfl

/-- A lane's running sum after its block `j`, started from `z`: `z + b 0`, then `+ b (j + 1)`. -/
def run (z : EReal) (b : ℕ → EReal) : ℕ → EReal
  | 0 => z + b 0
  | j + 1 => run z b j + b (j + 1)

theorem run_eq (z : EReal) (b : ℕ → EReal) : ∀ j : ℕ, run z b j = z + ∑ i ∈ range (j + 1), b i
  | 0 => by simp [run]
  | j + 1 => by rw [run, run_eq z b j, Finset.sum_range_succ _ (j + 1), add_assoc]

/-- The sample count `262144.0` as a real. -/
theorem ofBits_count : Ideal.ofBits .f32 0x48800000#32 = ((262144 : ℝ) : EReal) := by
  simp [Ideal.ofBits, Ideal.ieee, -EReal.coe_mul]; norm_num

/-- Dividing by the sample count is multiplying by its reciprocal. -/
theorem div_count (x : EReal) :
    Ideal.div x (Ideal.ofBits .f32 0x48800000#32) = x * ((1 / 262144 : ℝ) : EReal) := by
  rw [ofBits_count, Ideal.div_coe (by norm_num)]

/-- The two lanes' means add up to the mean of all samples. -/
theorem mean_of_lanes (L : Fin 262144 → EReal) (z : EReal) (hz : z = 0) :
    z + Ideal.div (z + ∑ s ∈ range 32, blockSum L s) (Ideal.ofBits .f32 0x48800000#32)
        + Ideal.div (z + ∑ s ∈ range 32, blockSum L (32 + s)) (Ideal.ofBits .f32 0x48800000#32)
      = Ideal.div (z + ∑ r : Fin 262144, L r) (Ideal.ofBits .f32 0x48800000#32) := by
  subst hz
  rw [div_count, div_count, div_count, zero_add, zero_add, zero_add, zero_add, total_eq_blocks,
    EReal.right_distrib_of_nonneg_of_ne_top (by exact_mod_cast (by norm_num : (0 : ℝ) ≤ 1 / 262144)) (EReal.coe_ne_top _)]

end Cert.Hinge

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Payload.lean ====
/-
  The body's arithmetic read at an index, over the extended reals.

  `k0_pay2 lab μ x acc` is the accumulator's next value. With `lab` the block's 4096 label words (a column), `μ` the
  1000 × 256 table of class means, `x` the block's 4096 × 256 features and `acc` the accumulator, its one entry is
      acc + ∑ q < 4096, max (5 − √(∑ d < 256, (x q d − m q d)²)) 0,
  where `m q d = ∑ c < 1000, [lab q = c] · μ c d` is row `q` of the one-hot matrix times the table: the comparison
  of the label column with the row 0 … 999 gives a 0/1 matrix, its entries converted to floats, and the matrix
  product into a zero accumulator is the plain sum of products. A change of float format is the identity, a lane
  sum is the sum over that axis, and the casts between [4096], [4096, 1], [1] and [1, 1] only rename indices.

  `k0_pay3 acc` is `acc / 262144` in every entry of the 1 × 1 × 1 output block, and `k0_pay1` is the zero block.
-/
import proofs.«408591_j29918742184188_3_alg».proof.Proof.Gen.KernelIdeal.Skeleton
import proofs.«408591_j29918742184188_3_alg».proof.Proof.Hinge
import proofs.«408591_j29918742184188_3_alg».proof.Proof.LibMatmulAt
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.ValueIdx

namespace Cert.KernelIdeal.Payload

open Cert.KernelIdeal Cert.KernelIdeal.Gen

/-- A column broadcast along the second axis reads, at (p, c), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-bit comparison widened to a word and read as a signed integer is 1 where the words agree, else 0. -/
theorem eq_bit_toReal (u w : BitVec 32) :
    ((((IntOp.cmpi .eq u w).setWidth 32).toInt : ℝ) : EReal) = if u = w then 1 else 0 := by
  by_cases h : u = w
  · rw [if_pos h, StableHlo.Predicate.cmpi_eq_iff.mpr h]
    norm_num
  · rw [if_neg h, eq_zero_of_ne_one (fun h1 => h (StableHlo.Predicate.cmpi_eq_iff.mp h1))]
    norm_num

/-- The one-hot matrix: entry (q, c) is 1 where row `q`'s label word is `c`, else 0. -/
theorem onehot_apply (lab : Vec Ideal S4096x1 .i32) (q : Fin 4096) (c : Fin 1000) :
    (truncf .bf16 (sitofp .f32 (extui 32 (cmpi .eq
        (broadcastTo S4096x1000 (shapeCast S4096x1 lab Facts₀.shapeCasts_S4096x1_S4096x1) Facts₀.broadcasts_S4096x1_S4096x1000)
        (broadcastTo S4096x1000 (iota .tc S1x1000 32 [1] Facts₀.iota_S1x1000_d1_w32) Facts₀.broadcasts_S1x1000_S4096x1000))
        Facts₀.natLt_1_32) : FVec Ideal S4096x1000 .f32) Facts₀.bitsLt_bf16_f32 : FVec Ideal S4096x1000 .bf16) (ix2 q c)
      = if lab (ix2 q (0 : Fin 1)) = BitVec.ofNat 32 c.val then 1 else 0 := by
  rw [shapeCast_self]
  show ((((IntOp.cmpi .eq (broadcastTo S4096x1000 lab _ (ix2 q c)) (broadcastTo S4096x1000 _ _ (ix2 q c))).setWidth 32).toInt : ℝ) : EReal) = _
  rw [broadcastTo_col_apply, broadcastTo_1b_ab_apply, iota_single_apply, eq_bit_toReal]

/-- Row `q` of the one-hot matrix times the table: `∑ c, [lab q = c] · μ c d`. -/
def pickedRow (lab : Vec Ideal S4096x1 .i32) (μ : Vec Ideal S1000x256 .f32) (q : Fin 4096) (d : Fin 256) : EReal :=
  ∑ c : Fin 1000, (if lab (ix2 q (0 : Fin 1)) = BitVec.ofNat 32 c.val then (1 : EReal) else 0) * μ (ix2 c d)

/-- The printed product contracts the left operand's columns with the right operand's rows. -/
theorem dot_eq : dot_S4096x1000_S1000x256_S4096x256_1_0_0_1_n_n = DotDims.plain 4096 1000 256 := rfl

/-- The lane sum along the columns at row `q` runs over (q, d). -/
theorem lift_row (q : Fin 4096) (d : Fin 256) :
    Facts₀.reduces_S4096x256_S4096.lift (ix1 q) d = ix2 q d :=
  funext fun a => Fin.ext (by match a with | ⟨0, _⟩ => rfl | ⟨1, _⟩ => rfl)

/-- The sum down the one column runs over (q, 0). -/
theorem lift_col (j : S1.Idx) (q : Fin 4096) :
    Facts₀.reduces_S4096x1_S1.lift j q = ix2 q (0 : Fin 1) :=
  funext fun a => Fin.ext (by
    match a with
    | ⟨0, _⟩ => rfl
    | ⟨1, _⟩ =>
      have h : (j 0).val < 1 := (j 0).isLt
      show (j 0).val = 0
      omega)

/-- A [4096, 256] array summed along its rows and viewed as a column reads, at (q, 0), row `q`'s sum. -/
theorem rowSum_apply (w : FVec Ideal S4096x256 .f32) (hφ : FKind.Formats .f32) (hacc : (0x00000000#32 : BitVec 32) = FKind.add.neutral .f32 hφ)
    (q : Fin 4096) :
    shapeCast S4096x1 (multiReduction .add [1] S4096 w 0x00000000#32 Facts₀.reduces_S4096x256_S4096 hφ hacc)
        Facts₀.shapeCasts_S4096_S4096x1 (ix2 q (0 : Fin 1)) = ∑ d : Fin 256, w (ix2 q d) := by
  refine (shapeCast_apply _ _ (ix2 q (0 : Fin 1)) (ix1 q) ?_).trans ?_
  · rw [Shape.rowMajor_val_one, Shape.rowMajor_val_two]
    show q.val = q.val * 1 + 0
    omega
  rw [Ideal.multiReduction_add_single]
  exact Finset.sum_congr rfl fun d _ => congrArg w (lift_row q d)

/-- A [4096, 1] column summed down and viewed as a 1 × 1 block reads the column's sum. -/
theorem colSum_apply (v : FVec Ideal S4096x1 .f32) (hφ : FKind.Formats .f32) (hacc : (0x00000000#32 : BitVec 32) = FKind.add.neutral .f32 hφ)
    (y : S1x1.Idx) :
    shapeCast S1x1 (multiReduction .add [0] S1 v 0x00000000#32 Facts₀.reduces_S4096x1_S1 hφ hacc)
        Facts₀.shapeCasts_S1_S1x1 y = ∑ q : Fin 4096, v (ix2 q (0 : Fin 1)) := by
  refine (shapeCast_apply _ _ y (ix1 (0 : Fin 1)) ?_).trans ?_
  · rw [Shape.rowMajor_val_one, Shape.rowMajor_val_two]
    have h0 : (y 0).val < 1 := (y 0).isLt
    have h1 : (y 1).val < 1 := (y 1).isLt
    show (0 : ℕ) = (y 0).val * 1 + (y 1).val
    omega
  rw [Ideal.multiReduction_add_single]
  exact Finset.sum_congr rfl fun q _ => congrArg v (lift_col (ix1 (0 : Fin 1)) q)

/-- The matrix product of the one-hot matrix with the table, at (q, d). -/
theorem picked_apply (lab : Vec Ideal S4096x1 .i32) (μ : Vec Ideal S1000x256 .f32) (q : Fin 4096) (d : Fin 256) :
    matmul dot_S4096x1000_S1000x256_S4096x256_1_0_0_1_n_n none
        (truncf .bf16 (sitofp .f32 (extui 32 (cmpi .eq
          (broadcastTo S4096x1000 (shapeCast S4096x1 lab Facts₀.shapeCasts_S4096x1_S4096x1) Facts₀.broadcasts_S4096x1_S4096x1000)
          (broadcastTo S4096x1000 (iota .tc S1x1000 32 [1] Facts₀.iota_S1x1000_d1_w32) Facts₀.broadcasts_S1x1000_S4096x1000))
          Facts₀.natLt_1_32) : FVec Ideal S4096x1000 .f32) Facts₀.bitsLt_bf16_f32 : FVec Ideal S4096x1000 .bf16)
        (truncf .bf16 μ Facts₀.bitsLt_bf16_f32 : FVec Ideal S1000x256 .bf16) (constant S4096x256 .f32 0x00000000#32) (ix2 q d)
      = pickedRow lab μ q d := by
  rw [dot_eq]
  refine (MatmulAt.matmul_plain_apply none _ _ q d).trans ?_
  unfold pickedRow
  exact Finset.sum_congr rfl fun c _ => by rw [onehot_apply]; rfl

theorem pay2_apply (lab : Vec Ideal S4096x1 .i32) (μ : Vec Ideal S1000x256 .f32) (x : Vec Ideal S4096x256 .f32)
    (acc : Vec Ideal S1x1 .f32) (y : S1x1.Idx) :
    k0_pay2 lab μ x acc y = acc y + ∑ q : Fin 4096, Hinge.rowLoss (fun d => x (ix2 q d)) (pickedRow lab μ q) := by
  unfold k0_pay2
  dsimp only
  rw [shapeCast_self]
  show acc y + _ = _
  congr 1
  refine (colSum_apply _ _ _ y).trans (Finset.sum_congr rfl fun q _ => ?_)
  unfold Hinge.rowLoss
  show max (Ideal.ofBits .f32 0x40A00000#32 - Ideal.sqrt (shapeCast S4096x1 _ _ (ix2 q (0 : Fin 1)))) (Ideal.ofBits .f32 0x00000000#32) = _
  refine congrArg (fun s => max (Ideal.ofBits .f32 0x40A00000#32 - Ideal.sqrt s) (Ideal.ofBits .f32 0x00000000#32))
    ((rowSum_apply _ _ _ q).trans (Finset.sum_congr rfl fun d _ => ?_))
  exact congrArg (fun z => (x (ix2 q d) - z) * (x (ix2 q d) - z)) (picked_apply lab μ q d)

/-- The output block: the accumulator divided by the sample count. -/
theorem pay3_apply (acc : Vec Ideal S1x1 .f32) (y : S1x1x1.Idx) :
    k0_pay3 acc y = Ideal.div (acc (ix2 (0 : Fin 1) (0 : Fin 1))) (Ideal.ofBits .f32 0x48800000#32) := by
  unfold k0_pay3
  refine (shapeCast_apply _ _ y (ix2 (0 : Fin 1) (0 : Fin 1)) ?_).trans rfl
  rw [Shape.rowMajor_val_two, Shape.rowMajor_val_three]
  have h0 : (y 0).val < 1 := (y 0).isLt
  have h1 : (y 1).val < 1 := (y 1).isLt
  have h2 : (y 2).val < 1 := (y 2).isLt
  show (0 : ℕ) * 1 + 0 = ((y 0).val * 1 + (y 1).val) * 1 + (y 2).val
  omega

/-- The reset stores the zero block. -/
theorem pay1_apply (y : S1x1.Idx) : k0_pay1 (F := Ideal) y = Ideal.ofBits .f32 0x00000000#32 := by
  unfold k0_pay1
  rw [shapeCast_self]
  rfl

end Cert.KernelIdeal.Payload

end
-- ==== Proof.Loss.lean ====
/-
  The quantity both programs compute, as ONE function of the three argument arrays: features `x` [262144 × 256],
  class means `μ` [1000 × 256], labels `lab` [262144] (32-bit words).

  A label word names the class `min (its value) 999`; on labels in range, `0 ≤ label < 1000`, that is the label
  itself. Sample `r`'s loss is the hinge `max (5 − ‖x r − μ (class r)‖₂) 0` (Hinge.lean), and the result is the
  mean of the 262144 losses. `meanLoss` spells the mean as one total divided once; `laneMean` as the sum of two
  lanes' quotients, each lane 32 blocks of 4096 samples summed from zero. They are equal (`laneMean_eq`).
-/
import proofs.«408591_j29918742184188_3_alg».proof.Proof.Hinge
import Idealize.ShloMosaic.Lib.ValueIdx

noncomputable section

namespace Cert.Loss

open Idealize.ShloMosaic Idealize.ShloMosaic.ValueIdx Finset

/-- The class a label word names: its value, capped at the last class. -/
def classOf (w : BitVec 32) : Fin 1000 := ⟨min w.toNat 999, by omega⟩

theorem classOf_of_lt {w : BitVec 32} (h : w.toNat < 1000) : (classOf w).val = w.toNat := by
  show min w.toNat 999 = w.toNat
  omega

/-- Sample `r`'s hinge loss against its class's mean row. -/
def sampleLoss (x : (⟨2, ![262144, 256]⟩ : Shape).Idx → EReal) (μ : (⟨2, ![1000, 256]⟩ : Shape).Idx → EReal)
    (lab : (⟨1, ![262144]⟩ : Shape).Idx → BitVec 32) (r : Fin 262144) : EReal :=
  Hinge.rowLoss (fun d => x (ix2 r d)) (fun d => μ (ix2 (classOf (lab (ix1 r))) d))

/-- The mean loss: all samples' losses added to zero, the total divided by the sample count. -/
def meanLoss (x : (⟨2, ![262144, 256]⟩ : Shape).Idx → EReal) (μ : (⟨2, ![1000, 256]⟩ : Shape).Idx → EReal)
    (lab : (⟨1, ![262144]⟩ : Shape).Idx → BitVec 32) : EReal :=
  Ideal.div (Ideal.ofBits .f32 0x00000000#32 + ∑ r : Fin 262144, sampleLoss x μ lab r) (Ideal.ofBits .f32 0x48800000#32)

/-- The same by lanes: each lane's 32 block sums added to zero and divided by the sample count, the two quotients
    added to zero. -/
def laneMean (x : (⟨2, ![262144, 256]⟩ : Shape).Idx → EReal) (μ : (⟨2, ![1000, 256]⟩ : Shape).Idx → EReal)
    (lab : (⟨1, ![262144]⟩ : Shape).Idx → BitVec 32) : EReal :=
  Ideal.ofBits .f32 0x00000000#32
    + Ideal.div (Ideal.ofBits .f32 0x00000000#32 + ∑ s ∈ range 32, Hinge.blockSum (sampleLoss x μ lab) s)
        (Ideal.ofBits .f32 0x48800000#32)
    + Ideal.div (Ideal.ofBits .f32 0x00000000#32 + ∑ s ∈ range 32, Hinge.blockSum (sampleLoss x μ lab) (32 + s))
        (Ideal.ofBits .f32 0x48800000#32)

theorem laneMean_eq (x : (⟨2, ![262144, 256]⟩ : Shape).Idx → EReal) (μ : (⟨2, ![1000, 256]⟩ : Shape).Idx → EReal)
    (lab : (⟨1, ![262144]⟩ : Shape).Idx → BitVec 32) : laneMean x μ lab = meanLoss x μ lab :=
  Hinge.mean_of_lanes (sampleLoss x μ lab) _ Ideal.ofBits_zero_f32

end Cert.Loss

end
-- ==== Proof.Blocks.lean ====
/-
  The input windows' blocks at a grid point, and one block's sum of row losses.

  The grid has 64 points; point `t` is lane `t / 32`, step `t % 32`, and the index maps of the features' and the
  labels' windows send it to block row `32 · lane + step = t`, block column 0, while the table's window is the whole
  table at every point. A block's entry `(q, d)` is therefore the array's entry `(4096 t + q, d)`: the features'
  block is rows `4096 t` … `4096 t + 4095` of the features; the labels' window reads the label column that a
  reshape of the label vector wrote before the region, whose entry `(r, 0)` is label `r`; and the table's block is
  the table.

  Under labels in range the one-hot row of sample `4096 t + q` has its single 1 at the sample's class (a word whose
  value is below 1000 equals the word of `k < 1000` exactly when `k` is that value), so the one-hot row times the
  table is the class's row of means (`Hinge.pick_row`). Row `q`'s loss is then sample `4096 t + q`'s loss, and the
  4096 of them add up to the specification's block sum `t`.
-/
import proofs.«408591_j29918742184188_3_alg».proof.Proof.Gen.KernelIdeal.Frame
import proofs.«408591_j29918742184188_3_alg».proof.Proof.Payload
import proofs.«408591_j29918742184188_3_alg».proof.Proof.Loss
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The features, the class means and the labels as the launch finds them. -/
abbrev X (c : Dev nD) : (⟨2, ![262144, 256]⟩ : Shape).Idx → EReal := m ((c.tc : Thread nD τ).loc main_arg0)
abbrev M (c : Dev nD) : (⟨2, ![1000, 256]⟩ : Shape).Idx → EReal := m ((c.tc : Thread nD τ).loc main_arg1)
abbrev LAB (c : Dev nD) : (⟨1, ![262144]⟩ : Shape).Idx → BitVec 32 := m ((c.tc : Thread nD τ).loc main_arg2)
/-- The three input windows' blocks at grid point `t`. -/
abbrev xblk (c : Dev nD) (t : Fin cfg0.N) : Vec Ideal S4096x256 .f32 := iblk m c 0 t
abbrev lblk (c : Dev nD) (t : Fin cfg0.N) : Vec Ideal S4096x1 .i32 := iblk m c 1 t
abbrev μblk (c : Dev nD) (t : Fin cfg0.N) : Vec Ideal S1000x256 .f32 := iblk m c 2 t

/-- Windows 0 and 1 sit at block row `t` (the grid point's number: 32 · lane + step), block column 0; window 2 is the
    whole table: decided over the 64 points. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- A grid point's number is below 64. -/
theorem t_lt (t : Fin cfg0.N) : t.val < 64 := by
  have h := t.isLt
  have hN : cfg0.N = 64 := N_0
  omega

/-- The features' block at point `t` is rows `4096 t` … `4096 t + 4095` of the features. -/
theorem xblk_apply (c : Dev nD) (t : Fin cfg0.N) (q : Fin 4096) (d : Fin 256) :
    xblk m c t (ix2 q d) = X m c (ix2 ⟨4096 * t.val + q.val, by have := t_lt t; omega⟩ d) := by
  unfold xblk iblk
  rw [View.read_apply]
  show V m c main_arg0 _ = m (c.tc.loc main_arg0) _
  rw [V_main_arg0]
  congr 1
  funext a
  apply Fin.ext
  match a with
  | ⟨0, _⟩ => show win0_0.index t 0 * 4096 + 1 * q.val = 4096 * t.val + q.val; rw [(idx0 t).1]; omega
  | ⟨1, _⟩ => show win0_0.index t 1 * 256 + 1 * d.val = d.val; rw [(idx0 t).2]; omega

/-- The label column the region finds is the labels reshaped: entry `(r, 0)` is label `r`. -/
theorem V_main_v0 (c : Dev nD) :
    (V m c main_v0 : S262144x1.Idx → BitVec 32)
      = shapeCast S262144x1 (m ((c.tc : Thread nD τ).loc main_arg2)) Facts₀.shapeCasts_S262144_S262144x1 := by
  show StableHlo.after hostOps0 (fun b => m (c, b)) (Proc.devRef .tc main_v0) = _
  after_results
  rfl

/-- The labels' block at point `t` is labels `4096 t` … `4096 t + 4095`, as a column. -/
theorem lblk_apply (c : Dev nD) (t : Fin cfg0.N) (q : Fin 4096) :
    lblk m c t (ix2 q (0 : Fin 1)) = LAB m c (ix1 ⟨4096 * t.val + q.val, by have := t_lt t; omega⟩) := by
  unfold lblk iblk
  rw [View.read_apply]
  show V m c main_v0 _ = m (c.tc.loc main_arg2) _
  rw [V_main_v0]
  refine shapeCast_apply _ _ _ (ix1 ⟨4096 * t.val + q.val, by have := t_lt t; omega⟩) ?_
  rw [Shape.rowMajor_val_one, Shape.rowMajor_val_two]
  show 4096 * t.val + q.val = (win0_1.index t 0 * 4096 + 1 * q.val) * 1 + (win0_1.index t 1 * 1 + 1 * 0)
  rw [(idx1 t).1, (idx1 t).2]
  omega

/-- The class means' block is the whole table at every point. -/
theorem μblk_apply (c : Dev nD) (t : Fin cfg0.N) (k : Fin 1000) (d : Fin 256) :
    μblk m c t (ix2 k d) = M m c (ix2 k d) := by
  unfold μblk iblk
  rw [View.read_apply]
  show V m c main_arg1 _ = m (c.tc.loc main_arg1) _
  rw [V_main_arg1]
  congr 1
  funext a
  apply Fin.ext
  match a with
  | ⟨0, _⟩ => show win0_2.index t 0 * 1000 + 1 * k.val = k.val; rw [(idx2 t).1]; omega
  | ⟨1, _⟩ => show win0_2.index t 1 * 256 + 1 * d.val = d.val; rw [(idx2 t).2]; omega

/-- A label word whose value is below 1000 is the word of class number `k` exactly when `k` is its class. -/
theorem eq_ofNat_iff {w : BitVec 32} (hw : w.toNat < 1000) (k : Fin 1000) :
    w = BitVec.ofNat 32 k.val ↔ k = Cert.Loss.classOf w := by
  have hk := k.isLt
  constructor
  · intro e
    refine Fin.ext ?_
    rw [Cert.Loss.classOf_of_lt hw, e, BitVec.toNat_ofNat, Nat.mod_eq_of_lt (by omega)]
  · intro e
    rw [e, Cert.Loss.classOf_of_lt hw, BitVec.ofNat_toNat, BitVec.setWidth_eq]

/-- The one-hot row of a label in range picks its class's row out of the table. -/
theorem picked_eq (c : Dev nD) (t : Fin cfg0.N) (q : Fin 4096) (d : Fin 256)
    (hw : (LAB m c (ix1 ⟨4096 * t.val + q.val, by have := t_lt t; omega⟩)).toNat < 1000) :
    Cert.KernelIdeal.Payload.pickedRow (lblk m c t) (μblk m c t) q d
      = M m c (ix2 (Cert.Loss.classOf (LAB m c (ix1 ⟨4096 * t.val + q.val, by have := t_lt t; omega⟩))) d) := by
  unfold Cert.KernelIdeal.Payload.pickedRow
  rw [lblk_apply]
  have hsum : ∀ k : Fin 1000,
      (if LAB m c (ix1 ⟨4096 * t.val + q.val, by have := t_lt t; omega⟩) = BitVec.ofNat 32 k.val then (1 : EReal) else 0)
          * μblk m c t (ix2 k d)
        = (if k = Cert.Loss.classOf (LAB m c (ix1 ⟨4096 * t.val + q.val, by have := t_lt t; omega⟩)) then (1 : EReal) else 0)
          * M m c (ix2 k d) := fun k => by
    rw [μblk_apply, if_congr (eq_ofNat_iff hw k) rfl rfl]
  rw [Finset.sum_congr rfl fun k _ => hsum k]
  exact Cert.Hinge.pick_row _ fun k => M m c (ix2 k d)

/-- ONE BLOCK: the sum of the 4096 row losses the body computes at point `t` is the specification's block sum `t`. -/
theorem block_loss (c : Dev nD) (hlab : ∀ r : Fin 262144, (LAB m c (ix1 r)).toNat < 1000) (t : Fin cfg0.N) :
    ∑ q : Fin 4096, Cert.Hinge.rowLoss (fun d => xblk m c t (ix2 q d)) (Cert.KernelIdeal.Payload.pickedRow (lblk m c t) (μblk m c t) q)
      = Cert.Hinge.blockSum (Cert.Loss.sampleLoss (X m c) (M m c) (LAB m c)) t.val := by
  unfold Cert.Hinge.blockSum
  rw [← Fin.sum_univ_eq_sum_range (fun q => Cert.Hinge.ext (Cert.Loss.sampleLoss (X m c) (M m c) (LAB m c)) (4096 * t.val + q)) 4096]
  refine Finset.sum_congr rfl fun q _ => ?_
  have hlt : 4096 * t.val + q.val < 262144 := by have := t_lt t; omega
  rw [Cert.Hinge.ext_of_lt _ hlt]
  unfold Cert.Loss.sampleLoss
  congr 1
  · funext d
    exact xblk_apply m c t q d
  · funext d
    exact picked_eq m c t q d (hlab _)

end Cert.KernelIdeal.Blocks

end
-- ==== Proof.Lanes.lean ====
/-
  The kernel's run, read as values.

  The grid has 64 points: 2 lanes of 32. Point `n` belongs to lane `n / 32` and handles that lane's block `n % 32`,
  which is block `n` of the samples. The body keeps a 1 × 1 accumulator between points: a lane's first point resets
  it to zero and adds its block's losses, every later point adds its block's losses to what the point before left,
  and a lane's last point also writes "accumulator / 262144" to entry (lane, 0, 0) of the [2, 1, 1] result array.

  So by induction on the point, the accumulator after point `n` is lane `n / 32`'s running sum through block `n % 32`
  (`carry_eq`); the two last points' write-backs cover the result array, which therefore ends holding each lane's
  total divided by the sample count (`final`); and the host's sum of those two entries from zero is the mean written
  by lanes, which equals the mean of all samples (`tail_eq`, `run`).

  The block sums are stated over the arrays the launch found, under the hypothesis that every label is in range:
  that is what turns the one-hot product into the labelled row of the table.
-/
import proofs.«408591_j29918742184188_3_alg».proof.Proof.Gen.KernelIdeal.Frame
import proofs.«408591_j29918742184188_3_alg».proof.Proof.Pieces
import proofs.«408591_j29918742184188_3_alg».proof.Proof.Payload
import proofs.«408591_j29918742184188_3_alg».proof.Proof.Blocks
import proofs.«408591_j29918742184188_3_alg».proof.Proof.Loss
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Lanes

open Cert.KernelIdeal Cert.KernelIdeal.Gen Cert.KernelIdeal.Blocks

variable (m : (ℓ : Loc nD τ sig) → Buf (Elt Ideal) ℓ) (ρ : Dev nD → PrngReg)

/-- Sample `r`'s loss, as a function of the arrays the launch found. -/
abbrev L (c : Dev nD) : Fin 262144 → EReal := Cert.Loss.sampleLoss (X m c) (M m c) (LAB m c)

/-- The zero the accumulator is reset to. -/
abbrev zero : EReal := Ideal.ofBits .f32 0x00000000#32

/-- The accumulator's entry after point `n`: lane `n / 32`'s running sum through its block `n % 32`. -/
def laneRun (c : Dev nD) (n : ℕ) : EReal :=
  Cert.Hinge.run zero (fun i => Cert.Hinge.blockSum (L m c) (32 * (n / 32) + i)) (n % 32)

/-- A lane's first point: zero plus the first block. -/
theorem step_first (c : Dev nD) (hlab : ∀ r : Fin 262144, (LAB m c (ix1 r)).toNat < 1000) (t : Fin cfg0.N)
    (h0 : t.val % 32 = 0) (y : S1x1.Idx) :
    k0_pay2 (lblk m c t) (μblk m c t) (xblk m c t) (k0_pay1 (F := Ideal)) y = laneRun m c t.val := by
  rw [Payload.pay2_apply, Payload.pay1_apply, block_loss m c hlab t]
  unfold laneRun
  rw [h0]
  show zero + _ = zero + Cert.Hinge.blockSum _ (32 * (t.val / 32) + 0)
  congr 2
  omega

/-- Any later point of a lane: what the point before left, plus this block. -/
theorem step_next (c : Dev nD) (hlab : ∀ r : Fin 262144, (LAB m c (ix1 r)).toNat < 1000) (t : Fin cfg0.N)
    (h0 : ¬t.val % 32 = 0) (acc : Vec Ideal S1x1 .f32) (hacc : ∀ y, acc y = laneRun m c (t.val - 1)) (y : S1x1.Idx) :
    k0_pay2 (lblk m c t) (μblk m c t) (xblk m c t) acc y = laneRun m c t.val := by
  rw [Payload.pay2_apply, hacc, block_loss m c hlab t]
  unfold laneRun
  obtain ⟨j, hj⟩ : ∃ j, t.val % 32 = j + 1 := Nat.exists_eq_succ_of_ne_zero h0
  have hd : (t.val - 1) / 32 = t.val / 32 := by omega
  have hm : (t.val - 1) % 32 = j := by omega
  rw [hd, hm, hj]
  show Cert.Hinge.run _ _ j + _ = Cert.Hinge.run _ _ j + Cert.Hinge.blockSum _ (32 * (t.val / 32) + (j + 1))
  congr 2
  omega

/-- THE CARRIED ACCUMULATOR after point `n` is lane `n / 32`'s running sum: by induction on the point. -/
theorem carry_eq (c : Dev nD) (hlab : ∀ r : Fin 262144, (LAB m c (ix1 r)).toNat < 1000) :
    ∀ (n : ℕ) (h : n < cfg0.N) (y : S1x1.Idx), (outsAt0 m c n h).2 y = laneRun m c n
  | 0, h, y => by
    rw [show outsAt0 m c 0 h = _ from outsAt0_A m c ⟨0, h⟩ (Nat.zero_mod _) (by dsimp only; omega)]
    dsimp only
    exact (congrFun (Pieces.acc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)) y).trans
      (step_first m c hlab ⟨0, h⟩ (Nat.zero_mod _) y)
  | n + 1, h, y => by
    have hN : n + 1 < 64 := lt_of_lt_of_eq h (show cfg0.N = 64 from N_0)
    by_cases h0 : (n + 1) % 32 = 0
    · have h1 : ¬(n + 1) % 32 = 31 := by omega
      rw [show outsAt0 m c (n + 1) h = _ from outsAt0_A m c ⟨n + 1, h⟩ h0 h1]
      dsimp only
      exact (congrFun (Pieces.acc_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)) y).trans
        (step_first m c hlab ⟨n + 1, h⟩ h0 y)
    · by_cases h1 : (n + 1) % 32 = 31
      · rw [show outsAt0 m c (n + 1) h = _ from outsAt0_C m c ⟨n + 1, h⟩ h0 h1]
        dsimp only
        exact (congrFun (Pieces.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
            (outsAt0 m c n (Nat.lt_of_succ_lt h)).2) y).trans
          (step_next m c hlab ⟨n + 1, h⟩ h0 _ (fun y' => carry_eq c hlab n (Nat.lt_of_succ_lt h) y') y)
      · rw [show outsAt0 m c (n + 1) h = _ from outsAt0_B m c ⟨n + 1, h⟩ h0 h1]
        dsimp only
        exact (congrFun (Pieces.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
            (outsAt0 m c n (Nat.lt_of_succ_lt h)).2) y).trans
          (step_next m c hlab ⟨n + 1, h⟩ h0 _ (fun y' => carry_eq c hlab n (Nat.lt_of_succ_lt h) y') y)

/-- What the region leaves in the [2, 1, 1] result array: entry (p, 0, 0) is lane `p`'s total, the running sum after
    its last point `32 p + 31`, divided by the sample count. -/
def laneOut (c : Dev nD) : S2x1x1.Idx → EReal := fun i =>
  Ideal.div (laneRun m c (32 * (i 0).val + 31)) (Ideal.ofBits .f32 0x48800000#32)

/-- The output window's block index at point `t` is (lane, 0, 0): decided over the grid. -/
theorem out_index : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- WHAT A LANE'S LAST POINT WRITES BACK is its block of `laneOut`. -/
theorem flushed_eq (c : Dev nD) (hlab : ∀ r : Fin 262144, (LAB m c (ix1 r)).toNat < 1000) (t : Fin cfg0.N)
    (hf : (cfg0.win 3).flush t = true) :
    (dats m 0 c).flushed 3 t = ((cfg0.win 3).blk t).view.read (Elt Ideal) (laneOut m c) := by
  have h31 : t.val % 32 = 31 := (flush0_3 t).mp hf
  have h0 : ¬t.val % 32 = 0 := by omega
  show (cfg0.win 3).cut (grid0.coords t) ((dats m 0 c).after 3 t) = _
  rw [after0_3, outsAt0_C m c t h0 h31]
  dsimp only
  funext y
  refine Eq.trans (b := k0_pay3 (k0_pay2 (lblk m c t) (μblk m c t) (xblk m c t)
    (outsAt0 m c (t.val - 1) (Nat.lt_of_le_of_lt (Nat.sub_le _ _) t.isLt)).2) y) ?_ ?_
  · exact congrFun (Pieces.out_last (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2) y
  · rw [Payload.pay3_apply, step_next m c hlab t h0 _ (fun y' => carry_eq m c hlab (t.val - 1) _ y')]
    show Ideal.div (laneRun m c t.val) _ = Ideal.div (laneRun m c (32 * (((cfg0.win 3).blk t).view.emb y 0).val + 31)) _
    have he : (((cfg0.win 3).blk t).view.emb y 0).val = t.val / 32 := by
      show win0_3.index t (0 : Fin 3) * 1 + 1 * (y 0).val = _
      have hy : (y 0).val < 1 := (y 0).isLt
      rw [(out_index t).1]
      omega
    rw [he]
    congr 2
    omega

/-- An index of the result array is in point `t`'s block iff each coordinate is in the block's range on its axis. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v1).slice (win0_3.rect t)).set ↔ _
  rw [View.set_slice_whole, Rect.mem_set_unit]
  exact Iff.rfl

/-- The two lanes' last points cover the result array: entry (p, 0, 0) is in point `32 p + 31`'s block. -/
theorem cover (i : S2x1x1.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have ht : 32 * (i 0).val + 31 < cfg0.N := lt_of_lt_of_eq (by omega : 32 * (i 0).val + 31 < 64) N_0.symm
  refine ⟨⟨32 * (i 0).val + 31, ht⟩, (flush0_3 _).mpr (by show (32 * (i 0).val + 31) % 32 = 31; omega), ?_⟩
  rw [mem_blk]
  obtain ⟨e0, e1, e2⟩ := out_index ⟨32 * (i 0).val + 31, ht⟩
  have e0' : win0_3.index ⟨32 * (i 0).val + 31, ht⟩ (0 : Fin 3) = (i 0).val := by rw [e0]; show (32 * (i 0).val + 31) / 32 = _; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- So the result array ends holding `laneOut`. -/
theorem final (c : Dev nD) (hlab : ∀ r : Fin 262144, (LAB m c (ix1 r)).toNat < 1000) :
    (dats m 0 c).arrAt 3 cfg0.N = laneOut m c :=
  (dats m 0 c).arrAt_eq_of_cover 3 (laneOut m c) (flushed_eq m c hlab) cover

/-- The [2, 1, 1] array's indices are its two entries (p, 0, 0). -/
def laneIdx : S2x1x1.Idx ≃ Fin 2 where
  toFun i := i 0
  invFun p := ix3 p (0 : Fin 1) (0 : Fin 1)
  left_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)
  right_inv p := rfl

/-- The host's sum of the two lane quotients, from zero, is the mean by lanes. -/
theorem tail_eq (c : Dev nD) (hlab : ∀ r : Fin 262144, (LAB m c (ix1 r)).toNat < 1000) :
    Pipeline.afterTail₀ cfgs (dats m) 0 (V0 m) [hostOps1] c main_v2
      = fun _ => Cert.Loss.laneMean (X m c) (M m c) (LAB m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = laneOut m c :=
    (Pipeline.withArrays_arr spec0 launch0.win.arr_inj c _ _ 3).trans (final m c hlab)
  rw [hw]
  funext i
  simp only [Host.reduceAdd, Ideal.hostReduceAdd_def]
  refine (Ideal.hostReduceAdd_total reducesTo_S2x1x1_S_d0_1_2 (fun b => b.elim0) _ _ i).trans ?_
  rw [← Equiv.sum_comp laneIdx.symm (laneOut m c), Fin.sum_univ_two]
  have r0 : laneRun m c 31 = zero + ∑ s ∈ Finset.range 32, Cert.Hinge.blockSum (L m c) s := by
    show Cert.Hinge.run zero (fun i => Cert.Hinge.blockSum (L m c) (32 * 0 + i)) 31 = _
    rw [Cert.Hinge.run_eq]
    exact congrArg (zero + ·) (Finset.sum_congr rfl fun i _ => by rw [Nat.mul_zero, Nat.zero_add])
  have r1 : laneRun m c 63 = zero + ∑ s ∈ Finset.range 32, Cert.Hinge.blockSum (L m c) (32 + s) := by
    show Cert.Hinge.run zero (fun i => Cert.Hinge.blockSum (L m c) (32 * 1 + i)) 31 = _
    rw [Cert.Hinge.run_eq]
  show zero + (Ideal.div (laneRun m c 31) _ + Ideal.div (laneRun m c 63) _) = _
  rw [r0, r1, ← add_assoc]
  rfl

/-- THE RUN, READ: every weakly fair execution of the kernel's @main ends with its result at the mean loss of the
    argument arrays, and the arguments unchanged. -/
theorem run (hlab : ∀ (c : Dev nD) (r : Fin 262144), (LAB m c (ix1 r)).toNat < 1000) :
    θ_run defs (onTc (τ := τ) (main (F := Ideal))) ⟨m, fun _ => 0, ρ⟩ fun r => ∀ c : Dev nD,
      r.2.mem ((c.tc : Thread nD τ).loc main_v2) = (fun _ => Cert.Loss.meanLoss (X m c) (M m c) (LAB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((tail_eq m c (hlab c)).trans (funext fun _ => Cert.Loss.laneMean_eq _ _ _)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Lanes

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.RefValue.lean ====
/-
  The reference's result, read as the mean loss.

  The reference is a chain of array operations. Read at an index from the result backwards: the result is the total
  of the 262144 row values added to zero and divided by the sample count; a row's value is
  `max (5 − √(0 + ∑ k, v k · v k)) 0` with `v k` the feature entry `(r, k)` minus the gathered class-mean entry
  `(r, k)`; and the gathered entry is the table's at the row the start index names, clamped into `[0, 999]`, column `k`
  (the row take of LibRowTake.lean). The start index of row `r` is the label, plus 1000 when the label is negative as a
  signed word; a label whose value is below 1000 is not negative, its signed reading is its value, and the clamp of
  that value is `classOf` of the label. So every row's value is `sampleLoss` (the inner sum's initial zero dropped),
  and the sum over the rank-1 index set is the sum over `Fin 262144` through the coordinate bijection: the result is
  `meanLoss`.
-/
import proofs.«408591_j29918742184188_3_alg».proof.Proof.Gen.ReferenceIdeal.Read
import proofs.«408591_j29918742184188_3_alg».proof.Proof.Loss
import proofs.«408591_j29918742184188_3_alg».proof.Proof.LibRowTake
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read

/-- The start index of row `r`. The program adds 1000 to a negative label and keeps a non-negative one; a label whose
    value is below 1000 is non-negative as a signed word, so its start index is the label itself. -/
theorem start_word (x2 : (⟨S262144, .i32⟩ : BufTy).Contents (Elt Ideal)) (r : Fin 262144)
    (h : (x2 (ix1 r)).toNat < 1000) :
    val_main_v5 (F := Ideal) x2 (ix2 r (0 : Fin 1)) = x2 (ix1 r) := by
  have hi : idx_main_v5 (ix2 r (0 : Fin 1)) = ix1 r := by
    funext a
    match a with
    | ⟨0, _⟩ => rfl
  rw [val_main_v5_apply, hi, val_main_v4_apply, val_main_v1_apply, val_main_v0_apply, val_main_c_apply]
  have hnot : ¬ IntOp.cmpi .slt (x2 (ix1 r)) 0#32 = 1#1 := by
    rw [StableHlo.Predicate.slt_iff_toNat (by omega) (by decide)]
    exact Nat.not_lt_zero _
  rw [eq_zero_of_ne_one hnot, select_zero]

/-- The gathered class-mean entry at `(r, d)`: the table's row `classOf (label r)`, column `d`. -/
theorem gather_row (x1 : (⟨S1000x256, .f32⟩ : BufTy).Contents (Elt Ideal))
    (x2 : (⟨S262144, .i32⟩ : BufTy).Contents (Elt Ideal)) (r : Fin 262144) (d : Fin 256)
    (h : (x2 (ix1 r)).toNat < 1000) :
    val_main_v6 (F := Ideal) x1 x2 (ix2 r d) = x1 (ix2 (Cert.Loss.classOf (x2 (ix1 r))) d) := by
  have e : gather_S1000x256_S262144x1_S262144x256_1_0_n_n_0_1_1256
      = Cert.LibRowTake.rowTakeDims 1000 256 262144 gather_S1000x256_S262144x1_S262144x256_1_0_n_n_0_1_1256_wf := rfl
  unfold val_main_v6
  rw [e, Cert.LibRowTake.gather_rowTake_apply (by decide)]
  congr 2
  refine Fin.ext ?_
  show min (val_main_v5 (F := Ideal) x2 (ix2 r (0 : Fin 1))).toInt.toNat (1000 - 1) = min (x2 (ix1 r)).toNat 999
  rw [start_word x2 r h, StableHlo.Predicate.toInt_eq_toNat_of_lt (by omega), Int.toNat_natCast]

/-- One squared difference: entry `(r, k)` of the features minus the class mean's, times itself. -/
theorem square_at (x0 : (⟨S262144x256, .f32⟩ : BufTy).Contents (Elt Ideal))
    (x1 : (⟨S1000x256, .f32⟩ : BufTy).Contents (Elt Ideal)) (x2 : (⟨S262144, .i32⟩ : BufTy).Contents (Elt Ideal))
    (r : Fin 262144) (k : Fin 256) (h : (x2 (ix1 r)).toNat < 1000) :
    val_main_v8 (F := Ideal) x0 x1 x2 (idx_main_v9 (ix1 r) k)
      = (x0 (ix2 r k) - x1 (ix2 (Cert.Loss.classOf (x2 (ix1 r))) k))
        * (x0 (ix2 r k) - x1 (ix2 (Cert.Loss.classOf (x2 (ix1 r))) k)) := by
  have hi : idx_main_v9 (ix1 r) k = ix2 r k := by
    funext a
    match a with
    | ⟨0, _⟩ => rfl
    | ⟨1, _⟩ => rfl
  rw [hi, val_main_v8_apply, val_main_v7_apply, gather_row x1 x2 r k h]
  rfl

/-- Row `r`'s hinge loss as the program computes it is the sample loss. -/
theorem loss_at (x0 : (⟨S262144x256, .f32⟩ : BufTy).Contents (Elt Ideal))
    (x1 : (⟨S1000x256, .f32⟩ : BufTy).Contents (Elt Ideal)) (x2 : (⟨S262144, .i32⟩ : BufTy).Contents (Elt Ideal))
    (r : Fin 262144) (h : (x2 (ix1 r)).toNat < 1000) :
    val_main_v14 (F := Ideal) x0 x1 x2 (ix1 r) = Cert.Loss.sampleLoss x0 x1 x2 r := by
  have hS : val_main_cst (F := Ideal) (Shape.Idx.first h_S_)
        + ∑ k : Fin 256, val_main_v8 (F := Ideal) x0 x1 x2 (idx_main_v9 (ix1 r) k)
      = ∑ d : Fin 256, (x0 (ix2 r d) - x1 (ix2 (Cert.Loss.classOf (x2 (ix1 r))) d))
          * (x0 (ix2 r d) - x1 (ix2 (Cert.Loss.classOf (x2 (ix1 r))) d)) := by
    rw [val_main_cst_apply, Ideal.ofBits_def, Ideal.ofBits_zero_f32, zero_add]
    exact Finset.sum_congr rfl fun k _ => square_at x0 x1 x2 r k h
  rw [val_main_v14_apply, val_main_v13_apply, val_main_cst_2_apply, val_main_v12_apply, val_main_v11_apply,
    val_main_cst_1_apply, val_main_v10_apply, val_main_v9_apply, hS]
  rfl

/-- THE REFERENCE'S RESULT under labels in range: the mean loss. -/
theorem result_eq (x0 : FVec Ideal Cert.ReferenceIdeal.S262144x256 .f32) (x1 : FVec Ideal Cert.ReferenceIdeal.S1000x256 .f32)
    (x2 : IVec Cert.ReferenceIdeal.S262144 32)
    (hlab : ∀ r : Fin 262144, (x2 (ix1 r)).toNat < 1000) :
    Cert.ReferenceIdeal.Read.val_main_v16 (F := Ideal) x0 x1 x2 = fun _ => Cert.Loss.meanLoss x0 x1 x2 := by
  funext i
  have hsum : ∑ j : S262144.Idx, val_main_v14 (F := Ideal) x0 x1 x2 j
      = ∑ r : Fin 262144, Cert.Loss.sampleLoss x0 x1 x2 r := by
    rw [← Equiv.sum_comp idxEquiv1.symm]
    exact Finset.sum_congr rfl fun r _ => loss_at x0 x1 x2 r (hlab r)
  rw [val_main_v16_apply, val_main_v15_apply, val_main_cst_4_apply, val_main_cst_3_apply, hsum]
  rfl

end Cert.ReferenceIdeal.RefValue

end
-- ==== Proof.PreLabels.lean ====
/-
  What the precondition says of the labels.

  The precondition is the conjunction of four bits: every feature finite, every class mean finite, every label
  `≥ 0` as a signed word, every label `< 1000` as a signed word. Each of the last two is an "all" over the 262144
  labels: a reduction by `and` of the array of comparison bits, started at 1; it is 1 only if every comparison bit
  is 1. A 32-bit word `w` with `0 ≤ w` signed has its top bit clear, so its signed value is its unsigned one, and
  `w < 1000` signed then says that unsigned value is below 1000. So under the precondition every label word's value
  is a class number `< 1000`. The two finiteness bits are not used.
-/
import proofs.«408591_j29918742184188_3_alg».proof.Pre_finite_inputs
import Idealize.ShloMosaic.Lib.ReduceAll
import Idealize.ShloMosaic.Lib.StableHlo.Predicate
import Idealize.ShloMosaic.Lib.ValueIdx

namespace Cert.PreLabels

open Idealize.ShloMosaic Idealize.ShloMosaic.ValueIdx

/-- The scalar shape has one index. -/
instance : Subsingleton Cert.Pre_finite_inputs.S_.Idx := ⟨fun _ _ => funext fun d => d.elim0⟩

/-- A word that is `≥ 0` and `< 1000`, both read signed, has a value below 1000. -/
theorem toNat_lt_of_signed {w : BitVec 32} (h0 : IntOp.cmpi .sge w 0#32 = 1#1) (h1 : IntOp.cmpi .slt w 1000#32 = 1#1) :
    w.toNat < 1000 := by
  have hge : (0#32).sle w = true := (StableHlo.Predicate.ofBool_eq_one_iff _).1 h0
  have hlt : w.slt 1000#32 = true := (StableHlo.Predicate.ofBool_eq_one_iff _).1 h1
  have hge' : (0#32 : BitVec 32).toInt ≤ w.toInt := by simpa [BitVec.sle] using hge
  have hlt' : w.toInt < (1000#32 : BitVec 32).toInt := by simpa [BitVec.slt] using hlt
  have e0 : (0#32 : BitVec 32).toInt = 0 := by decide
  have e1 : (1000#32 : BitVec 32).toInt = 1000 := by decide
  rw [e0] at hge'
  rw [e1] at hlt'
  have hw := w.isLt
  rw [BitVec.toInt_eq_toNat_cond] at hge' hlt'
  split at hge' <;> omega

/-- Under the precondition every label's value is below the number of classes. -/
theorem labels_lt [Cert.Pre_finite_inputs.Facts] (x0 : FVec Ideal Cert.Pre_finite_inputs.S262144x256 .f32)
    (x1 : FVec Ideal Cert.Pre_finite_inputs.S1000x256 .f32) (x2 : IVec Cert.Pre_finite_inputs.S262144 32)
    (h : Cert.Pre_finite_inputs.fn (F := Ideal) x0 x1 x2 = fun _ => 1#1) :
    ∀ r : Fin 262144, (x2 (ix1 r)).toNat < 1000 := by
  intro r
  have h0 := congrFun h ix0
  dsimp only [Cert.Pre_finite_inputs.fn, Cert.Pre_finite_inputs.fn_part1] at h0
  -- the conjunction of four bits, the last two the labels' range
  obtain ⟨h12, hlt⟩ := IntOp.andi_eq_one.1 h0
  obtain ⟨_, hge⟩ := IntOp.andi_eq_one.1 h12
  have hge' := Host.reduce_andi_all _ _ _ _ _ hge (ix1 r)
  have hlt' := Host.reduce_andi_all _ _ _ _ _ hlt (ix1 r)
  refine toNat_lt_of_signed ?_ ?_
  · have e := StableHlo.Predicate.bcast_scalar Cert.Pre_finite_inputs.Facts.bcast_S_S262144
      Cert.Pre_finite_inputs.Facts.h_S_ (constantI Cert.Pre_finite_inputs.S_ 32 0#32) (ix1 r)
    have := hge'
    unfold cmpi at this
    rw [e] at this
    exact this
  · have e := StableHlo.Predicate.bcast_scalar Cert.Pre_finite_inputs.Facts.bcast_S_S262144
      Cert.Pre_finite_inputs.Facts.h_S_ (constantI Cert.Pre_finite_inputs.S_ 32 1000#32) (ix1 r)
    have := hlt'
    unfold cmpi at this
    rw [e] at this
    exact this

end Cert.PreLabels
-- ==== Proof.lean ====
/-
  The kernel and the reference compute the same number: the mean over 262144 samples of the hinge loss
  `max (5 − ‖x r − μ (label r)‖₂) 0`, read over the extended reals, for finite features and class means and labels
  in range, `0 ≤ label < 1000`.

  The reference gathers each sample's class-mean row, takes the distances, clamps, adds all losses to zero and
  divides by 262144. Its run and its operations read at an index are generated; that its result is `meanLoss` of the
  argument arrays is RefValue.lean (the gather at a label in range reads that label's row).

  The kernel gathers by a one-hot product, which over the extended reals is the labelled row because `0 · x = 0` and
  `1 · x = x`; it adds the losses lane by lane and block by block into an accumulator carried across grid points,
  divides each of the two lane totals by 262144, and the host adds the two quotients to zero (Pieces.lean,
  Payload.lean, Blocks.lean, Lanes.lean). That is the same mean because a sum may be cut into blocks and a
  non-negative finite factor distributes over a sum of extended reals (Hinge.lean, Loss.lean).

  The label range is read off the precondition (PreLabels.lean); the finiteness of the float inputs is not needed.
  The three frames are the generated ones (the reference's is its generated run with the result dropped), and the
  idealization rewrote nothing, so `preserves` is `True`.
-/
import proofs.«408591_j29918742184188_3_alg».proof.Defs
import proofs.«408591_j29918742184188_3_alg».proof.Proof.Gen.Kernel
import proofs.«408591_j29918742184188_3_alg».proof.Proof.Gen.Kernel.Skeleton
import proofs.«408591_j29918742184188_3_alg».proof.Proof.Gen.Kernel.Launch
import proofs.«408591_j29918742184188_3_alg».proof.Proof.Gen.Kernel.Points
import proofs.«408591_j29918742184188_3_alg».proof.Proof.Gen.Kernel.Frame
import proofs.«408591_j29918742184188_3_alg».proof.Proof.Gen.KernelIdeal
import proofs.«408591_j29918742184188_3_alg».proof.Proof.Gen.KernelIdeal.Skeleton
import proofs.«408591_j29918742184188_3_alg».proof.Proof.Gen.KernelIdeal.Launch
import proofs.«408591_j29918742184188_3_alg».proof.Proof.Gen.KernelIdeal.Points
import proofs.«408591_j29918742184188_3_alg».proof.Proof.Gen.KernelIdeal.Frame
import proofs.«408591_j29918742184188_3_alg».proof.Proof.Gen.ReferenceIdeal
import proofs.«408591_j29918742184188_3_alg».proof.Proof.Gen.Pre_finite_inputs
import proofs.«408591_j29918742184188_3_alg».proof.Proof.Gen.ReferenceIdeal.Run
import proofs.«408591_j29918742184188_3_alg».proof.Proof.Gen.ReferenceIdeal.Read
import proofs.«408591_j29918742184188_3_alg».proof.Proof.Lanes
import proofs.«408591_j29918742184188_3_alg».proof.Proof.RefValue
import proofs.«408591_j29918742184188_3_alg».proof.Proof.PreLabels
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the mean loss of the argument arrays: the kernel's by lanes and blocks, the reference's as one
    total; the precondition puts every label in range, which both readings use. -/
theorem algebraic : Cert.algebraic_KernelIdeal_ReferenceIdeal := by
  intro m ρ m' ρ' hpre hagree
  have hlab : ∀ (c : Dev Cert.KernelIdeal.nD) (r : Fin 262144),
      (Cert.KernelIdeal.Blocks.LAB m c (ix1 r)).toNat < 1000 :=
    fun c => Cert.PreLabels.labels_lt _ _ _ (hpre c)
  refine ⟨fun c _ => Cert.Loss.meanLoss (Cert.KernelIdeal.Blocks.X m c) (Cert.KernelIdeal.Blocks.M m c)
    (Cert.KernelIdeal.Blocks.LAB m c), Cert.KernelIdeal.Lanes.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  exact Cert.ReferenceIdeal.RefValue.result_eq _ _ _ (hlab c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
